-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel

variable [Facts]

def fn {F : FTy → Type} [FloatOps F] (main_arg0 : FVec F S64x256x56x56 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  main_v3
-- ==== Kernel.lean ====
abbrev S64x256x56x56 : Shape := ⟨4, ![64, 256, 56, 56]⟩
abbrev S8x256x8x56 : Shape := ⟨4, ![8, 256, 8, 56]⟩
abbrev S8x32x8x56 : Shape := ⟨4, ![8, 32, 8, 56]⟩
abbrev S8x192x8x56 : Shape := ⟨4, ![8, 192, 8, 56]⟩
abbrev S1x32x8x56 : Shape := ⟨4, ![1, 32, 8, 56]⟩
abbrev S7x32x8x56 : Shape := ⟨4, ![7, 32, 8, 56]⟩

abbrev nBuf : Space → Nat
  | .hbm => 2
  | .vmem => 4
  | .smem => 0
  | _ => 0

abbrev bufTy : (tb : Table) → Fin (tcTables nBuf tb) → BufTy
  | .hbm, ⟨0, _⟩ => ⟨S64x256x56x56, .f32⟩
  | .hbm, ⟨1, _⟩ => ⟨S64x256x56x56, .f32⟩
  | .local _ .vmem, ⟨0, _⟩ => ⟨S8x256x8x56, .f32⟩
  | .local _ .vmem, ⟨1, _⟩ => ⟨S8x256x8x56, .f32⟩
  | .local _ .vmem, ⟨2, _⟩ => ⟨S8x256x8x56, .f32⟩
  | .local _ .vmem, ⟨3, _⟩ => ⟨S8x256x8x56, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 7], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S8x256x8x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x8x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S8x256x8x56_S8x32x8x56_0_0_0_0 : ∀ a, (![0, 0, 0, 0] : Fin 4 → Nat) a + S8x32x8x56.size a ≤ S8x256x8x56.size a
  h_S8x32x8x56 : 0 < S8x32x8x56.numel
  inb_S8x256x8x56_S8x32x8x56_0_32_0_0 : ∀ a, (![0, 32, 0, 0] : Fin 4 → Nat) a + S8x32x8x56.size a ≤ S8x256x8x56.size a
  inb_S8x256x8x56_S8x192x8x56_0_64_0_0 : ∀ a, (![0, 64, 0, 0] : Fin 4 → Nat) a + S8x192x8x56.size a ≤ S8x256x8x56.size a
  h_S8x192x8x56 : 0 < S8x192x8x56.numel
  slices_S8x32x8x56_o1_0_0_0_S7x32x8x56 : S8x32x8x56.Slices ![1, 0, 0, 0] S7x32x8x56
  concatenates_S7x32x8x56_S1x32x8x56_S8x32x8x56_d0 : Shape.Concatenates [S7x32x8x56, S1x32x8x56] S8x32x8x56 0
  slices_S8x32x8x56_o0_0_0_0_S7x32x8x56 : S8x32x8x56.Slices ![0, 0, 0, 0] S7x32x8x56
  concatenates_S1x32x8x56_S7x32x8x56_S8x32x8x56_d0 : Shape.Concatenates [S1x32x8x56, S7x32x8x56] S8x32x8x56 0
  concatenates_S8x32x8x56_S8x32x8x56_S8x192x8x56_S8x256x8x56_d1 : Shape.Concatenates [S8x32x8x56, S8x32x8x56, S8x192x8x56] S8x256x8x56 1
  inb_S8x256x8x56_S8x256x8x56_0_0_0_0 : ∀ a, (![0, 0, 0, 0] : Fin 4 → Nat) a + S8x256x8x56.size a ≤ S8x256x8x56.size a
  h_S8x256x8x56 : 0 < S8x256x8x56.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x8x56.size a ≤ S64x256x56x56.size a
  hwx0_0 : ∀ i : grid0.Coords, EltTy.bits .f32 = 32 ∨ (Rect.block (s := S64x256x56x56) S8x256x8x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x8x56.size a ≤ S64x256x56x56.size a
  hwx0_1 : ∀ i : grid0.Coords, EltTy.bits .f32 = 32 ∨ (Rect.block (s := S64x256x56x56) S8x256x8x56.size (cc0_transform_1 i) (hinb0_1 i)).WholeWords (EltTy.packing .f32)

variable [Facts₀]

abbrev win0_0 : Pipeline.Window sig grid0 :=
  Pipeline.Window.ofSpec (Memref.whole main_arg0) S8x256x8x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x256x8x56.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S8x8x256x56x56 : Shape := ⟨5, ![8, 8, 256, 56, 56]⟩
abbrev S8x8x32x56x56 : Shape := ⟨5, ![8, 8, 32, 56, 56]⟩
abbrev S8x8x192x56x56 : Shape := ⟨5, ![8, 8, 192, 56, 56]⟩
abbrev S_ : Shape := ⟨0, ![]⟩
abbrev S8x1x32x56x56 : Shape := ⟨5, ![8, 1, 32, 56, 56]⟩
abbrev S8x7x32x56x56 : Shape := ⟨5, ![8, 7, 32, 56, 56]⟩

abbrev nBuf : Space → Nat
  | .hbm => 13
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S8x8x256x56x56, .f32⟩
  | .hbm, ⟨2, _⟩ => ⟨S8x8x32x56x56, .f32⟩
  | .hbm, ⟨3, _⟩ => ⟨S8x8x32x56x56, .f32⟩
  | .hbm, ⟨4, _⟩ => ⟨S8x8x192x56x56, .f32⟩
  | .hbm, ⟨5, _⟩ => ⟨S_, .f32⟩
  | .hbm, ⟨6, _⟩ => ⟨S8x1x32x56x56, .f32⟩
  | .hbm, ⟨7, _⟩ => ⟨S8x7x32x56x56, .f32⟩
  | .hbm, ⟨8, _⟩ => ⟨S8x8x32x56x56, .f32⟩
  | .hbm, ⟨9, _⟩ => ⟨S8x7x32x56x56, .f32⟩
  | .hbm, ⟨10, _⟩ => ⟨S8x8x32x56x56, .f32⟩
  | .hbm, ⟨11, _⟩ => ⟨S8x8x256x56x56, .f32⟩
  | .hbm, ⟨12, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]

class Facts₀ : Prop where
  shapeCasts_S64x256x56x56_S8x8x256x56x56 : S64x256x56x56.ShapeCasts S8x8x256x56x56
  slices_S8x8x256x56x56_S8x8x32x56x56_0_0_0_0_0 : S8x8x256x56x56.Slices ![0, 0, 0, 0, 0] S8x8x32x56x56
  slices_S8x8x256x56x56_S8x8x32x56x56_0_0_32_0_0 : S8x8x256x56x56.Slices ![0, 0, 32, 0, 0] S8x8x32x56x56
  slices_S8x8x256x56x56_S8x8x192x56x56_0_0_64_0_0 : S8x8x256x56x56.Slices ![0, 0, 64, 0, 0] S8x8x192x56x56
  bcast_S_S8x1x32x56x56 : S_.BroadcastsInDim S8x1x32x56x56 (![] : Fin 0 → Fin S8x1x32x56x56.rank)
  slices_S8x8x32x56x56_S8x7x32x56x56_0_1_0_0_0 : S8x8x32x56x56.Slices ![0, 1, 0, 0, 0] S8x7x32x56x56
  concatenates_S8x7x32x56x56_S8x1x32x56x56_S8x8x32x56x56_d1 : Shape.Concatenates [S8x7x32x56x56, S8x1x32x56x56] S8x8x32x56x56 1
  slices_S8x8x32x56x56_S8x7x32x56x56_0_0_0_0_0 : S8x8x32x56x56.Slices ![0, 0, 0, 0, 0] S8x7x32x56x56
  concatenates_S8x1x32x56x56_S8x7x32x56x56_S8x8x32x56x56_d1 : Shape.Concatenates [S8x1x32x56x56, S8x7x32x56x56] S8x8x32x56x56 1
  concatenates_S8x8x32x56x56_S8x8x32x56x56_S8x8x192x56x56_S8x8x256x56x56_d2 : Shape.Concatenates [S8x8x32x56x56, S8x8x32x56x56, S8x8x192x56x56] S8x8x256x56x56 2
  shapeCasts_S8x8x256x56x56_S64x256x56x56 : S8x8x256x56x56.ShapeCasts S64x256x56x56

variable [Facts₀]

class Facts : Prop extends Facts₀ where

variable [Facts]
-- ==== Proof.BlockShift.lean ====
/-
  What the kernel body stores, read at an index of its block.

  A block holds the 8 frames of one clip (all 256 channels, 8 rows, 56 columns). The body loads the block's three
  channel bands (channels 0 to 31, 32 to 63, 64 to 255), drops frame 0 of the first band and appends a zero frame,
  prepends a zero frame to the second band and drops its frame 7, and joins the three along the channels. So at
  frame `t`, channel `c` of the block the stored value is
    * `c < 32`:  the first band at frame `t + 1` (`t < 7`), zero at `t = 7`;
    * `32 ≤ c < 64`: the second band at frame `t - 1` (`1 ≤ t`), zero at `t = 0`;
    * `64 ≤ c`: the third band at frame `t`.
-/
import proofs.«172650_j50242527428854_1_alg».proof.Proof.Gen.KernelIdeal.Skeleton
import Idealize.ShloMosaic.Lib.Pipeline.Value
import Idealize.ShloMosaic.Lib.ValueIdx

noncomputable section

namespace Cert.KernelIdeal.BlockValue

open Cert.KernelIdeal Cert.KernelIdeal.Gen
open Idealize.ShloMosaic Idealize.ShloMosaic.ValueIdx

variable {F : FTy → Type} [FloatOps F]

/-- The first band moved one frame back inside the block. -/
theorem back_at (v0 : Vec F S8x32x8x56 .f32) (z : F .f32) (hs : S8x32x8x56.Slices ![1, 0, 0, 0] S7x32x8x56)
    (hc : Shape.Concatenates [S7x32x8x56, S1x32x8x56] S8x32x8x56 0) (t : Fin 8) (c : Fin 32) (h : Fin 8) (w : Fin 56) :
    concatenate S8x32x8x56 0 [⟨S7x32x8x56, extractStridedSlice S7x32x8x56 ![1, 0, 0, 0] v0 hs⟩, ⟨S1x32x8x56, broadcast S1x32x8x56 z⟩] hc
        (ix4 t c h w)
      = if ht : t.val < 7 then v0 (ix4 (⟨t.val + 1, by omega⟩ : Fin 8) c h w) else z := by
  by_cases ht : t.val < 7
  · rw [dif_pos ht]
    refine (concatenate_pair_apply_left (t := S8x32x8x56) (s₁ := S7x32x8x56) (s₂ := S1x32x8x56) (0 : Fin 4) _ _ hc (ix4 t c h w) rfl
      (ix4 (⟨t.val, ht⟩ : Fin 7) c h w) (fun b => match b with
        | ⟨0, _⟩ => rfl | ⟨1, _⟩ => rfl | ⟨2, _⟩ => rfl | ⟨3, _⟩ => rfl)).trans ?_
    exact extractStridedSlice_apply ![1, 0, 0, 0] v0 hs _ (ix4 (⟨t.val + 1, by omega⟩ : Fin 8) c h w) (fun a => match a with
      | ⟨0, _⟩ => by show t.val + 1 = 1 + t.val; omega
      | ⟨1, _⟩ => by show c.val = 0 + c.val; omega
      | ⟨2, _⟩ => by show h.val = 0 + h.val; omega
      | ⟨3, _⟩ => by show w.val = 0 + w.val; omega)
  · rw [dif_neg ht]
    have ht7 : t.val = 7 := by have := t.isLt; omega
    exact concatenate_pair_apply_right (t := S8x32x8x56) (s₁ := S7x32x8x56) (s₂ := S1x32x8x56) (0 : Fin 4) _ _ hc (ix4 t c h w) rfl rfl
      (ix4 (0 : Fin 1) c h w) (fun b => match b with
        | ⟨0, _⟩ => fun hb => absurd (Fin.ext rfl) hb
        | ⟨1, _⟩ => fun _ => rfl | ⟨2, _⟩ => fun _ => rfl | ⟨3, _⟩ => fun _ => rfl)
      (by show 0 + 7 = t.val; omega)

/-- The second band moved one frame forward inside the block. -/
theorem fwd_at (v1 : Vec F S8x32x8x56 .f32) (z : F .f32) (hs : S8x32x8x56.Slices ![0, 0, 0, 0] S7x32x8x56)
    (hc : Shape.Concatenates [S1x32x8x56, S7x32x8x56] S8x32x8x56 0) (t : Fin 8) (c : Fin 32) (h : Fin 8) (w : Fin 56) :
    concatenate S8x32x8x56 0 [⟨S1x32x8x56, broadcast S1x32x8x56 z⟩, ⟨S7x32x8x56, extractStridedSlice S7x32x8x56 ![0, 0, 0, 0] v1 hs⟩] hc
        (ix4 t c h w)
      = if ht : 1 ≤ t.val then v1 (ix4 (⟨t.val - 1, by have := t.isLt; omega⟩ : Fin 8) c h w) else z := by
  by_cases ht : 1 ≤ t.val
  · rw [dif_pos ht]
    refine (concatenate_pair_apply_right (t := S8x32x8x56) (s₁ := S1x32x8x56) (s₂ := S7x32x8x56) (0 : Fin 4) _ _ hc (ix4 t c h w) rfl rfl
      (ix4 (⟨t.val - 1, by have := t.isLt; omega⟩ : Fin 7) c h w) (fun b => match b with
        | ⟨0, _⟩ => fun hb => absurd (Fin.ext rfl) hb
        | ⟨1, _⟩ => fun _ => rfl | ⟨2, _⟩ => fun _ => rfl | ⟨3, _⟩ => fun _ => rfl)
      (by show t.val - 1 + 1 = t.val; omega)).trans ?_
    exact extractStridedSlice_apply ![0, 0, 0, 0] v1 hs _ (ix4 (⟨t.val - 1, by have := t.isLt; omega⟩ : Fin 8) c h w) (fun a => match a with
      | ⟨0, _⟩ => by show t.val - 1 = 0 + (t.val - 1); omega
      | ⟨1, _⟩ => by show c.val = 0 + c.val; omega
      | ⟨2, _⟩ => by show h.val = 0 + h.val; omega
      | ⟨3, _⟩ => by show w.val = 0 + w.val; omega)
  · rw [dif_neg ht]
    have ht0 : t.val = 0 := by omega
    exact concatenate_pair_apply_left (t := S8x32x8x56) (s₁ := S1x32x8x56) (s₂ := S7x32x8x56) (0 : Fin 4) _ _ hc (ix4 t c h w) rfl
      (ix4 (0 : Fin 1) c h w) (fun b => match b with
        | ⟨0, _⟩ => by show 0 = t.val; omega
        | ⟨1, _⟩ => rfl | ⟨2, _⟩ => rfl | ⟨3, _⟩ => rfl)

/-- The stored value at frame `t`, channel `c`, row `h`, column `w` of the block, from the three loaded bands. -/
theorem payload_at (v0 v1 : Vec F S8x32x8x56 .f32) (v2 : Vec F S8x192x8x56 .f32) (t : Fin 8) (c : Fin 256) (h : Fin 8) (w : Fin 56) :
    k0_pay1 v0 v1 v2 (ix4 t c h w)
      = if hc : c.val < 32 then
          (if ht : t.val < 7 then v0 (ix4 (⟨t.val + 1, by omega⟩ : Fin 8) (⟨c.val, hc⟩ : Fin 32) h w) else Scalar.ofBits .f32 0x00000000#32)
        else if hc' : c.val < 64 then
          (if ht : 1 ≤ t.val then v1 (ix4 (⟨t.val - 1, by have := t.isLt; omega⟩ : Fin 8) (⟨c.val - 32, by omega⟩ : Fin 32) h w)
            else Scalar.ofBits .f32 0x00000000#32)
        else v2 (ix4 t (⟨c.val - 64, by have := c.isLt; omega⟩ : Fin 192) h w) := by
  unfold k0_pay1
  by_cases hc : c.val < 32
  · rw [dif_pos hc]
    refine (concatenate_apply_piece (t := S8x256x8x56) (1 : Fin 4) _ _ (ix4 t c h w) 0 (by simp) S8x32x8x56 _ rfl rfl 0 rfl
      (ix4 t (⟨c.val, hc⟩ : Fin 32) h w) (fun b => match b with
        | ⟨0, _⟩ => fun _ => rfl
        | ⟨1, _⟩ => fun hb => absurd (Fin.ext rfl) hb
        | ⟨2, _⟩ => fun _ => rfl | ⟨3, _⟩ => fun _ => rfl)
      (by show 0 + c.val = c.val; omega)).trans ?_
    exact back_at v0 _ _ _ t ⟨c.val, hc⟩ h w
  · rw [dif_neg hc]
    by_cases hc' : c.val < 64
    · rw [dif_pos hc']
      refine (concatenate_apply_piece (t := S8x256x8x56) (1 : Fin 4) _ _ (ix4 t c h w) 1 (by simp) S8x32x8x56 _ rfl rfl 32 rfl
        (ix4 t (⟨c.val - 32, by omega⟩ : Fin 32) h w) (fun b => match b with
          | ⟨0, _⟩ => fun _ => rfl
          | ⟨1, _⟩ => fun hb => absurd (Fin.ext rfl) hb
          | ⟨2, _⟩ => fun _ => rfl | ⟨3, _⟩ => fun _ => rfl)
        (by show 32 + (c.val - 32) = c.val; omega)).trans ?_
      exact fwd_at v1 _ _ _ t ⟨c.val - 32, by omega⟩ h w
    · rw [dif_neg hc']
      exact concatenate_apply_piece (t := S8x256x8x56) (1 : Fin 4) _ _ (ix4 t c h w) 2 (by simp) S8x192x8x56 _ rfl rfl 64 rfl
        (ix4 t (⟨c.val - 64, by have := c.isLt; omega⟩ : Fin 192) h w) (fun b => match b with
          | ⟨0, _⟩ => fun _ => rfl
          | ⟨1, _⟩ => fun hb => absurd (Fin.ext rfl) hb
          | ⟨2, _⟩ => fun _ => rfl | ⟨3, _⟩ => fun _ => rfl)
        (by show 64 + (c.val - 64) = c.val; omega)

end Cert.KernelIdeal.BlockValue

end
-- ==== Proof.ShiftSpec.lean ====
/-
  The temporal shift as ONE function of the input array, index by index.

  The input holds 64 frames of 256 channels of 56 x 56 pixels; the frames come in 8 clips of 8 consecutive
  frames, so frame `n` is position `n % 8` of clip `n / 8`. Within every clip
    * the first 32 channels are moved one frame BACK in time: the result at frame `n` is the input at frame `n + 1`,
      and the last frame of the clip (position 7) is filled with the fill value;
    * the next 32 channels are moved one frame FORWARD: the result at frame `n` is the input at frame `n - 1`, and
      the first frame of the clip (position 0) is filled;
    * the remaining 192 channels are copied.
  Nothing is computed: every result element is one input element or the fill value, so the function is stated for
  any element type and any fill value.
-/
import Idealize.ShloMosaic.Lib.ValueIdx

noncomputable section

namespace Cert.TemporalShift

open Idealize.ShloMosaic Idealize.ShloMosaic.ValueIdx

/-- The array's shape: frames, channels, rows, columns. -/
abbrev SX : Shape := ⟨4, ![64, 256, 56, 56]⟩

/-- The shifted array at frame `n`, channel `c`, pixel `(h, w)`; `z` fills the frame a clip has no neighbour for. -/
def shiftAt {α : Type} (z : α) (x : SX.Idx → α) (n : Fin 64) (c : Fin 256) (h w : Fin 56) : α :=
  if c.val < 32 then
    if hn : n.val % 8 < 7 then x (ix4 (⟨n.val + 1, by have := n.isLt; omega⟩ : Fin 64) c h w) else z
  else if c.val < 64 then
    if hn : 1 ≤ n.val % 8 then x (ix4 (⟨n.val - 1, by have := n.isLt; omega⟩ : Fin 64) c h w) else z
  else x (ix4 n c h w)

/-- The shifted array. -/
def shift {α : Type} (z : α) (x : SX.Idx → α) : SX.Idx → α :=
  fun i => shiftAt z x (i 0) (i 1) (i 2) (i 3)

theorem shift_ix4 {α : Type} (z : α) (x : SX.Idx → α) (n : Fin 64) (c : Fin 256) (h w : Fin 56) :
    shift z x (ix4 n c h w) = shiftAt z x n c h w := rfl

/-! ## One clip at a time

A clip's 8 frames (all channels, a band of 8 rows) shifted by themselves are the clip's part of the shifted array:
the shift never reads across a clip's ends, because positions 0 and 7 are exactly where it fills. -/

/-- The shape of one clip's block: 8 frames, 256 channels, 8 rows, 56 columns. -/
abbrev SB : Shape := ⟨4, ![8, 256, 8, 56]⟩

/-- The shift inside one block of 8 frames: position `t` of the block plays the part of `n % 8`. -/
def shiftBlk {α : Type} (z : α) (X : SB.Idx → α) (t : Fin 8) (c : Fin 256) (h : Fin 8) (w : Fin 56) : α :=
  if c.val < 32 then
    if ht : t.val < 7 then X (ix4 (⟨t.val + 1, by omega⟩ : Fin 8) c h w) else z
  else if c.val < 64 then
    if ht : 1 ≤ t.val then X (ix4 (⟨t.val - 1, by have := t.isLt; omega⟩ : Fin 8) c h w) else z
  else X (ix4 t c h w)

/-- If `X` is clip `g`, row tile `r` of the array `A` (frame `t` of the block is frame `8 g + t` of the array, row `h`
    of the block is row `8 r + h`), the block shifted by itself is the same part of the shifted array. -/
theorem shiftBlk_eq_shift {α : Type} (z : α) (A : SX.Idx → α) (X : SB.Idx → α) (g : Fin 8) (r : Fin 7)
    (hX : ∀ (t : Fin 8) (c : Fin 256) (h : Fin 8) (w : Fin 56),
      X (ix4 t c h w) = A (ix4 (⟨g.val * 8 + t.val, by have := g.isLt; have := t.isLt; omega⟩ : Fin 64) c
        (⟨r.val * 8 + h.val, by have := r.isLt; have := h.isLt; omega⟩ : Fin 56) w))
    (t : Fin 8) (c : Fin 256) (h : Fin 8) (w : Fin 56) :
    shiftBlk z X t c h w = shift z A (ix4 (⟨g.val * 8 + t.val, by have := g.isLt; have := t.isLt; omega⟩ : Fin 64) c
        (⟨r.val * 8 + h.val, by have := r.isLt; have := h.isLt; omega⟩ : Fin 56) w) := by
  have hg := g.isLt; have ht := t.isLt
  rw [shift_ix4]
  unfold shiftBlk shiftAt
  by_cases hc : c.val < 32
  · rw [if_pos hc, if_pos hc]
    by_cases h7 : t.val < 7
    · have hlt : (g.val * 8 + t.val) % 8 < 7 := by omega
      rw [dif_pos h7, dif_pos hlt, hX]
      refine congrArg A (funext fun a => Fin.ext ?_)
      match a with
      | ⟨0, _⟩ => show g.val * 8 + (t.val + 1) = g.val * 8 + t.val + 1; omega
      | ⟨1, _⟩ => rfl
      | ⟨2, _⟩ => rfl
      | ⟨3, _⟩ => rfl
    · have hlt : ¬ (g.val * 8 + t.val) % 8 < 7 := by omega
      rw [dif_neg h7, dif_neg hlt]
  · rw [if_neg hc, if_neg hc]
    by_cases hc' : c.val < 64
    · rw [if_pos hc', if_pos hc']
      by_cases h1 : 1 ≤ t.val
      · have hle : 1 ≤ (g.val * 8 + t.val) % 8 := by omega
        rw [dif_pos h1, dif_pos hle, hX]
        refine congrArg A (funext fun a => Fin.ext ?_)
        match a with
        | ⟨0, _⟩ => show g.val * 8 + (t.val - 1) = g.val * 8 + t.val - 1; omega
        | ⟨1, _⟩ => rfl
        | ⟨2, _⟩ => rfl
        | ⟨3, _⟩ => rfl
      · have hle : ¬ 1 ≤ (g.val * 8 + t.val) % 8 := by omega
        rw [dif_neg h1, dif_neg hle]
    · rw [if_neg hc', if_neg hc']
      exact hX t c h w

end Cert.TemporalShift

end
-- ==== Proof.KernelShift.lean ====
/-
  The kernel's result array is the temporal shift of its argument (`Cert.TemporalShift.shift`), with the fill value
  the body's zero constant.

  The grid has one point per clip (8) and per tile of 8 rows (7); at a point the input block and the output block
  are the same part of their arrays: the clip's 8 frames, all channels, the tile's rows, all columns. The body's store
  is the block shifted by itself (Proof/BlockShift.lean), which is that part of the shifted array
  (`shiftBlk_eq_shift`); the 56 blocks tile the array, so the array after the run is the shifted array.
-/
import proofs.«172650_j50242527428854_1_alg».proof.Proof.Gen.KernelIdeal.Value
import proofs.«172650_j50242527428854_1_alg».proof.Proof.BlockShift
import proofs.«172650_j50242527428854_1_alg».proof.Proof.ShiftSpec

set_option maxRecDepth 16384

noncomputable section

namespace Cert.KernelIdeal.ShiftValue

open Cert.KernelIdeal Cert.KernelIdeal.Gen Cert.KernelIdeal.BlockValue
open Idealize.ShloMosaic Idealize.ShloMosaic.TcCoe Idealize.SL.Sem Idealize.ShloMosaic.ValueIdx Cert.TemporalShift
open Idealize.ShloMosaic.Pipeline (Dat)

variable {F : FTy → Type} [FloatOps F]
variable (m : (ℓ : Loc nD τ sig) → Buf (Elt F) ℓ) (ρ : Dev nD → PrngReg)

theorem zero_offsets : (![0, 0, 0, 0] : Fin 4 → Nat) = fun _ => 0 := funext fun a => by fin_cases a <;> rfl

/-! ## The stored block from the loaded block -/

/-- The three loads read the block's three channel bands, so the store is the block shifted by itself. -/
theorem stored_at (X : Vec F S8x256x8x56 .f32) (t : Fin 8) (c : Fin 256) (h : Fin 8) (w : Fin 56) :
    k0_pay1 (View.ld X r0_0) (View.ld X r0_1) (View.ld X r0_2) (ix4 t c h w)
      = shiftBlk (Scalar.ofBits .f32 0x00000000#32 : F .f32) X t c h w := by
  rw [payload_at]
  unfold shiftBlk
  by_cases hc : c.val < 32
  · rw [dif_pos hc, if_pos hc]
    by_cases h7 : t.val < 7
    · rw [dif_pos h7, dif_pos h7]
      refine congrArg X (funext fun a => Fin.ext ?_)
      match a with
      | ⟨0, _⟩ => show 0 + 1 * (t.val + 1) = t.val + 1; omega
      | ⟨1, _⟩ => show 0 + 1 * c.val = c.val; omega
      | ⟨2, _⟩ => show 0 + 1 * h.val = h.val; omega
      | ⟨3, _⟩ => show 0 + 1 * w.val = w.val; omega
    · rw [dif_neg h7, dif_neg h7]
  · rw [dif_neg hc, if_neg hc]
    by_cases hc' : c.val < 64
    · rw [dif_pos hc', if_pos hc']
      by_cases h1 : 1 ≤ t.val
      · rw [dif_pos h1, dif_pos h1]
        refine congrArg X (funext fun a => Fin.ext ?_)
        match a with
        | ⟨0, _⟩ => show 0 + 1 * (t.val - 1) = t.val - 1; omega
        | ⟨1, _⟩ => show 32 + 1 * (c.val - 32) = c.val; omega
        | ⟨2, _⟩ => show 0 + 1 * h.val = h.val; omega
        | ⟨3, _⟩ => show 0 + 1 * w.val = w.val; omega
      · rw [dif_neg h1, dif_neg h1]
    · rw [dif_neg hc', if_neg hc']
      refine congrArg X (funext fun a => Fin.ext ?_)
      match a with
      | ⟨0, _⟩ => show 0 + 1 * t.val = t.val; omega
      | ⟨1, _⟩ => show 64 + 1 * (c.val - 64) = c.val; omega
      | ⟨2, _⟩ => show 0 + 1 * h.val = h.val; omega
      | ⟨3, _⟩ => show 0 + 1 * w.val = w.val; omega

/-! ## The blocks on the grid -/

/-- The printed index maps, decided over the 56 grid points: both windows' block index is (clip, 0, row tile, 0). -/
theorem idx_facts : ∀ t : Fin cfg0.N,
    win0_0.index t (0 : Fin 4) = win0_1.index t (0 : Fin 4) ∧ win0_0.index t (1 : Fin 4) = 0
    ∧ win0_0.index t (2 : Fin 4) = win0_1.index t (2 : Fin 4) ∧ win0_0.index t (3 : Fin 4) = 0
    ∧ win0_1.index t (0 : Fin 4) ≤ 7 ∧ win0_1.index t (1 : Fin 4) = 0
    ∧ win0_1.index t (2 : Fin 4) ≤ 6 ∧ win0_1.index t (3 : Fin 4) = 0 :=
  (by decide +kernel : ∀ t : Fin grid0.N, _)

/-- Every (clip, row tile) is some grid point's. -/
theorem idx_onto : ∀ (g : Fin 8) (r : Fin 7), ∃ t : Fin cfg0.N, win0_1.index t = ![g.val, 0, r.val, 0] :=
  (by decide +kernel : ∀ (g : Fin 8) (r : Fin 7), ∃ t : Fin grid0.N, win0_1.index t = ![g.val, 0, r.val, 0])

/-- WHAT POINT `t` WRITES BACK is its block of the shifted argument array. -/
theorem flushed_eq (c : Dev nD) (t : Fin cfg0.N) :
    (dats m 0 c).flushed 1 t
      = ((cfg0.win 1).blk t).view.read (Elt F) (shift (Scalar.ofBits .f32 0x00000000#32 : F .f32) (V m c main_arg0)) := by
  rw [Value.flushed1]
  unfold out0_1
  rw [View.canon_unit_zero zero_offsets]
  obtain ⟨e0, e1, e2, e3, b0, b1, b2, b3⟩ := idx_facts t
  funext j
  obtain ⟨tt, cc, hh, ww, rfl⟩ : ∃ (tt : Fin 8) (cc : Fin 256) (hh : Fin 8) (ww : Fin 56), j = ix4 tt cc hh ww :=
    ⟨j 0, j 1, j 2, j 3, eq_ix4 j⟩
  have htt := tt.isLt; have hcc := cc.isLt; have hhh := hh.isLt; have hww := ww.isLt
  show k0_pay1 (View.ld (iblk m c 0 t) r0_0) (View.ld (iblk m c 0 t) r0_1) (View.ld (iblk m c 0 t) r0_2) (ix4 tt cc hh ww)
    = shift (Scalar.ofBits .f32 0x00000000#32 : F .f32) (V m c main_arg0) (((cfg0.win 1).blk t).view.emb (ix4 tt cc hh ww))
  refine (stored_at (iblk m c 0 t) tt cc hh ww).trans ?_
  refine (shiftBlk_eq_shift (Scalar.ofBits .f32 0x00000000#32 : F .f32) (V m c main_arg0) (iblk m c 0 t)
    (⟨win0_1.index t (0 : Fin 4), by omega⟩ : Fin 8) (⟨win0_1.index t (2 : Fin 4), by omega⟩ : Fin 7) ?_ tt cc hh ww).trans ?_
  · intro t' c' h' w'
    have ht' := t'.isLt; have hc' := c'.isLt; have hh' := h'.isLt; have hw' := w'.isLt
    show V m c main_arg0 (((cfg0.win 0).blk t).view.emb (ix4 t' c' h' w')) = V m c main_arg0 _
    refine congrArg (V m c main_arg0) (funext fun a => Fin.ext ?_)
    match a with
    | ⟨0, _⟩ => show win0_0.index t (0 : Fin 4) * 8 + 1 * t'.val = win0_1.index t (0 : Fin 4) * 8 + t'.val; omega
    | ⟨1, _⟩ => show win0_0.index t (1 : Fin 4) * 256 + 1 * c'.val = c'.val; omega
    | ⟨2, _⟩ => show win0_0.index t (2 : Fin 4) * 8 + 1 * h'.val = win0_1.index t (2 : Fin 4) * 8 + h'.val; omega
    | ⟨3, _⟩ => show win0_0.index t (3 : Fin 4) * 56 + 1 * w'.val = w'.val; omega
  · refine congrArg (shift (Scalar.ofBits .f32 0x00000000#32 : F .f32) (V m c main_arg0)) (funext fun a => Fin.ext ?_)
    match a with
    | ⟨0, _⟩ => show win0_1.index t (0 : Fin 4) * 8 + tt.val = win0_1.index t (0 : Fin 4) * 8 + 1 * tt.val; omega
    | ⟨1, _⟩ => show cc.val = win0_1.index t (1 : Fin 4) * 256 + 1 * cc.val; omega
    | ⟨2, _⟩ => show win0_1.index t (2 : Fin 4) * 8 + hh.val = win0_1.index t (2 : Fin 4) * 8 + 1 * hh.val; omega
    | ⟨3, _⟩ => show ww.val = win0_1.index t (3 : Fin 4) * 56 + 1 * ww.val; omega

/-- An index of the array is in point `t`'s block iff each coordinate is in the block's range on its axis. -/
theorem mem_blk (t : Fin cfg0.N) (i : S64x256x56x56.Idx) :
    i ∈ ((cfg0.win 1).blk t).view.set ↔ ∀ a : Fin 4, win0_1.index t a * S8x256x8x56.size a ≤ (i a).val
      ∧ (i a).val < win0_1.index t a * S8x256x8x56.size a + S8x256x8x56.size a := by
  show i ∈ ((View.whole main_v0).slice (win0_1.rect t)).set ↔ _
  rw [View.set_slice_whole, Rect.mem_set_unit]
  exact Iff.rfl

/-- The 56 blocks cover the array: frame `n`, row `h` is in the block of clip `n / 8`, row tile `h / 8`. -/
theorem covered (i : S64x256x56x56.Idx) :
    ∃ t : Fin cfg0.N, (cfg0.win 1).flush t = true ∧ i ∈ ((cfg0.win 1).blk t).view.set := by
  have hi0 : (i 0).val < 64 := (i 0).isLt
  have hi1 : (i 1).val < 256 := (i 1).isLt
  have hi2 : (i 2).val < 56 := (i 2).isLt
  have hi3 : (i 3).val < 56 := (i 3).isLt
  obtain ⟨t, ht⟩ := idx_onto ⟨(i 0).val / 8, by omega⟩ ⟨(i 2).val / 8, by omega⟩
  have q0 : win0_1.index t (0 : Fin 4) = (i 0).val / 8 := congrFun ht 0
  have q1 : win0_1.index t (1 : Fin 4) = 0 := congrFun ht 1
  have q2 : win0_1.index t (2 : Fin 4) = (i 2).val / 8 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 8 ≤ (i 0).val ∧ (i 0).val < win0_1.index t (0 : Fin 4) * 8 + 8; omega
  | ⟨1, _⟩ => show win0_1.index t (1 : Fin 4) * 256 ≤ (i 1).val ∧ (i 1).val < win0_1.index t (1 : Fin 4) * 256 + 256; omega
  | ⟨2, _⟩ => show win0_1.index t (2 : Fin 4) * 8 ≤ (i 2).val ∧ (i 2).val < win0_1.index t (2 : Fin 4) * 8 + 8; omega
  | ⟨3, _⟩ => show win0_1.index t (3 : Fin 4) * 56 ≤ (i 3).val ∧ (i 3).val < win0_1.index t (3 : Fin 4) * 56 + 56; omega

/-- THE ARRAY after the run: the temporal shift of the argument array. -/
theorem final (c : Dev nD) :
    (dats m 0 c).arrAt 1 cfg0.N = shift (Scalar.ofBits .f32 0x00000000#32 : F .f32) (m ((c : Thread nD τ).loc main_arg0)) :=
  (dats m 0 c).arrAt_eq_of_cover 1 (shift (Scalar.ofBits .f32 0x00000000#32 : F .f32) (V m c main_arg0))
    (fun t _ => flushed_eq m c t) covered

/-- The kernel's run: the result array ends at the shifted argument array, the argument unchanged. -/
theorem run : θ_run defs (onTc (τ := τ) (main (F := F))) ⟨m, fun _ => 0, ρ⟩ fun r => ∀ c : Dev nD,
      r.2.mem ((c : Thread nD τ).loc main_v0) = shift (Scalar.ofBits .f32 0x00000000#32 : F .f32) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ShiftValue

end
-- ==== Proof.RefShift.lean ====
/-
  The reference's result is the temporal shift of its argument (`Cert.TemporalShift.shift`), with the fill value the
  reference's zero constant.

  The reference views the 64 frames as 8 clips of 8 (a reshape to five axes: clip, position, channel, row, column),
  cuts the channels into three bands, moves the first band one position back (drop position 0, append a zero frame),
  the second one position forward (prepend a zero frame, drop position 7), joins the three bands again and views the
  result as 64 frames. Read at frame `n = 8 g + t`: the element of the joined array at clip `g`, position `t`.
-/
import proofs.«172650_j50242527428854_1_alg».proof.Proof.Gen.ReferenceIdeal.Read
import proofs.«172650_j50242527428854_1_alg».proof.Proof.ShiftSpec

noncomputable section

namespace Cert.ReferenceIdeal.RefValue

open Cert.ReferenceIdeal Cert.ReferenceIdeal.Gen Cert.ReferenceIdeal.Read
open Idealize.ShloMosaic Idealize.ShloMosaic.ValueIdx Cert.TemporalShift

variable {F : FTy → Type} [FloatOps F]

/-- The frame number of position `t` of clip `g`. -/
abbrev frame (g t : Fin 8) : Fin 64 := ⟨g.val * 8 + t.val, by have := g.isLt; have := t.isLt; omega⟩

/-- The reshape to clips, read at (clip, position, channel, row, column): the argument at frame `8 g + t`. -/
theorem clips_at (x0 : (⟨S64x256x56x56, .f32⟩ : BufTy).Contents (Elt F)) (g t : Fin 8) (c : Fin 256) (h w : Fin 56) :
    val_main_v0 (F := F) x0 (ix5 g t c h w) = x0 (ix4 (frame g t) c h w) := by
  rw [val_main_v0_apply]
  congr 1
  funext a; apply Fin.ext
  have hg := g.isLt; have ht := t.isLt; have hc := c.isLt; have hh := h.isLt; have hw := w.isLt
  match a with
  | ⟨0, _⟩ => show ((((g.val * 8 + t.val) * 256 + c.val) * 56 + h.val) * 56 + w.val) / 802816 = g.val * 8 + t.val; omega
  | ⟨1, _⟩ => show ((((g.val * 8 + t.val) * 256 + c.val) * 56 + h.val) * 56 + w.val) / 3136 % 256 = c.val; omega
  | ⟨2, _⟩ => show ((((g.val * 8 + t.val) * 256 + c.val) * 56 + h.val) * 56 + w.val) / 56 % 56 = h.val; omega
  | ⟨3, _⟩ => show ((((g.val * 8 + t.val) * 256 + c.val) * 56 + h.val) * 56 + w.val) % 56 = w.val; omega

/-- The first band (channels 0 to 31) of the clips. -/
theorem band0_at (x0 : (⟨S64x256x56x56, .f32⟩ : BufTy).Contents (Elt F)) (g t : Fin 8) (c : Fin 32) (h w : Fin 56) :
    val_main_v1 (F := F) x0 (ix5 g t c h w) = x0 (ix4 (frame g t) (⟨c.val, by have := c.isLt; omega⟩ : Fin 256) h w) := by
  rw [val_main_v1_apply]
  refine Eq.trans ?_ (clips_at x0 g t (⟨c.val, by have := c.isLt; omega⟩ : Fin 256) h w)
  congr 1
  funext a; apply Fin.ext
  match a with
  | ⟨0, _⟩ => rfl
  | ⟨1, _⟩ => rfl
  | ⟨2, _⟩ => rfl
  | ⟨3, _⟩ => rfl
  | ⟨4, _⟩ => rfl

/-- The second band (channels 32 to 63). -/
theorem band1_at (x0 : (⟨S64x256x56x56, .f32⟩ : BufTy).Contents (Elt F)) (g t : Fin 8) (c : Fin 32) (h w : Fin 56) :
    val_main_v2 (F := F) x0 (ix5 g t c h w) = x0 (ix4 (frame g t) (⟨32 + c.val, by have := c.isLt; omega⟩ : Fin 256) h w) := by
  rw [val_main_v2_apply]
  refine Eq.trans ?_ (clips_at x0 g t (⟨32 + c.val, by have := c.isLt; omega⟩ : Fin 256) h w)
  congr 1
  funext a; apply Fin.ext
  match a with
  | ⟨0, _⟩ => rfl
  | ⟨1, _⟩ => rfl
  | ⟨2, _⟩ => rfl
  | ⟨3, _⟩ => rfl
  | ⟨4, _⟩ => rfl

/-- The third band (channels 64 to 255). -/
theorem band2_at (x0 : (⟨S64x256x56x56, .f32⟩ : BufTy).Contents (Elt F)) (g t : Fin 8) (c : Fin 192) (h w : Fin 56) :
    val_main_v3 (F := F) x0 (ix5 g t c h w) = x0 (ix4 (frame g t) (⟨64 + c.val, by have := c.isLt; omega⟩ : Fin 256) h w) := by
  rw [val_main_v3_apply]
  refine Eq.trans ?_ (clips_at x0 g t (⟨64 + c.val, by have := c.isLt; omega⟩ : Fin 256) h w)
  congr 1
  funext a; apply Fin.ext
  match a with
  | ⟨0, _⟩ => rfl
  | ⟨1, _⟩ => rfl
  | ⟨2, _⟩ => rfl
  | ⟨3, _⟩ => rfl
  | ⟨4, _⟩ => rfl

/-- The zero frame the reference pads with. -/
theorem pad_at (i : S8x1x32x56x56.Idx) : val_main_v4 (F := F) i = FloatOps.ofBits .f32 0x00000000#32 := by
  rw [val_main_v4_apply, val_main_cst_apply]

/-- The first band moved one position back: positions 0 to 6 read the band one position later, position 7 the pad. -/
theorem back_at (x0 : (⟨S64x256x56x56, .f32⟩ : BufTy).Contents (Elt F)) (g t : Fin 8) (c : Fin 32) (h w : Fin 56) :
    val_main_v6 (F := F) x0 (ix5 g t c h w)
      = if ht : t.val < 7 then x0 (ix4 (frame g (⟨t.val + 1, by omega⟩ : Fin 8)) (⟨c.val, by have := c.isLt; omega⟩ : Fin 256) h w)
        else FloatOps.ofBits .f32 0x00000000#32 := by
  unfold val_main_v6
  by_cases ht : t.val < 7
  · rw [dif_pos ht]
    refine (concatenate_pair_apply_left (t := S8x8x32x56x56) (s₁ := S8x7x32x56x56) (s₂ := S8x1x32x56x56) (1 : Fin 5) _ _ _ (ix5 g t c h w) rfl
      (ix5 g (⟨t.val, ht⟩ : Fin 7) c h w) (fun b => match b with
        | ⟨0, _⟩ => rfl | ⟨1, _⟩ => rfl | ⟨2, _⟩ => rfl | ⟨3, _⟩ => rfl | ⟨4, _⟩ => rfl)).trans ?_
    rw [val_main_v5_apply]
    refine Eq.trans ?_ (band0_at x0 g (⟨t.val + 1, by omega⟩ : Fin 8) c h w)
    congr 1
    funext a; apply Fin.ext
    match a with
    | ⟨0, _⟩ => rfl
    | ⟨1, _⟩ => show 1 + t.val = t.val + 1; omega
    | ⟨2, _⟩ => rfl
    | ⟨3, _⟩ => rfl
    | ⟨4, _⟩ => rfl
  · rw [dif_neg ht]
    have ht7 : t.val = 7 := by have := t.isLt; omega
    refine (concatenate_pair_apply_right (t := S8x8x32x56x56) (s₁ := S8x7x32x56x56) (s₂ := S8x1x32x56x56) (1 : Fin 5) _ _ _ (ix5 g t c h w) rfl rfl
      (ix5 g (0 : Fin 1) c h w) (fun b => match b with
        | ⟨0, _⟩ => fun _ => rfl
        | ⟨1, _⟩ => fun hb => absurd (Fin.ext rfl) hb
        | ⟨2, _⟩ => fun _ => rfl | ⟨3, _⟩ => fun _ => rfl | ⟨4, _⟩ => fun _ => rfl)
      (by show 0 + 7 = t.val; omega)).trans ?_
    exact pad_at _

/-- The second band moved one position forward: position 0 reads the pad, positions 1 to 7 the band one position earlier. -/
theorem fwd_at (x0 : (⟨S64x256x56x56, .f32⟩ : BufTy).Contents (Elt F)) (g t : Fin 8) (c : Fin 32) (h w : Fin 56) :
    val_main_v8 (F := F) x0 (ix5 g t c h w)
      = if ht : 1 ≤ t.val then x0 (ix4 (frame g (⟨t.val - 1, by have := t.isLt; omega⟩ : Fin 8)) (⟨32 + c.val, by have := c.isLt; omega⟩ : Fin 256) h w)
        else FloatOps.ofBits .f32 0x00000000#32 := by
  unfold val_main_v8
  by_cases ht : 1 ≤ t.val
  · rw [dif_pos ht]
    refine (concatenate_pair_apply_right (t := S8x8x32x56x56) (s₁ := S8x1x32x56x56) (s₂ := S8x7x32x56x56) (1 : Fin 5) _ _ _ (ix5 g t c h w) rfl rfl
      (ix5 g (⟨t.val - 1, by have := t.isLt; omega⟩ : Fin 7) c h w) (fun b => match b with
        | ⟨0, _⟩ => fun _ => rfl
        | ⟨1, _⟩ => fun hb => absurd (Fin.ext rfl) hb
        | ⟨2, _⟩ => fun _ => rfl | ⟨3, _⟩ => fun _ => rfl | ⟨4, _⟩ => fun _ => rfl)
      (by show t.val - 1 + 1 = t.val; omega)).trans ?_
    rw [val_main_v7_apply]
    refine Eq.trans ?_ (band1_at x0 g (⟨t.val - 1, by have := t.isLt; omega⟩ : Fin 8) c h w)
    congr 1
    funext a; apply Fin.ext
    match a with
    | ⟨0, _⟩ => rfl
    | ⟨1, _⟩ => rfl
    | ⟨2, _⟩ => rfl
    | ⟨3, _⟩ => rfl
    | ⟨4, _⟩ => rfl
  · rw [dif_neg ht]
    have ht0 : t.val = 0 := by omega
    refine (concatenate_pair_apply_left (t := S8x8x32x56x56) (s₁ := S8x1x32x56x56) (s₂ := S8x7x32x56x56) (1 : Fin 5) _ _ _ (ix5 g t c h w) rfl
      (ix5 g (0 : Fin 1) c h w) (fun b => match b with
        | ⟨0, _⟩ => rfl
        | ⟨1, _⟩ => by show 0 = t.val; omega
        | ⟨2, _⟩ => rfl | ⟨3, _⟩ => rfl | ⟨4, _⟩ => rfl)).trans ?_
    exact pad_at _

/-- The three bands joined along the channels, at clip `g`, position `t`: the shifted array at frame `8 g + t`. -/
theorem joined_at (x0 : (⟨S64x256x56x56, .f32⟩ : BufTy).Contents (Elt F)) (g t : Fin 8) (c : Fin 256) (h w : Fin 56) :
    val_main_v9 (F := F) x0 (ix5 g t c h w) = shiftAt (FloatOps.ofBits .f32 0x00000000#32) x0 (frame g t) c h w := by
  unfold val_main_v9 shiftAt
  have hg := g.isLt; have ht := t.isLt
  by_cases hc : c.val < 32
  · rw [if_pos hc]
    refine (concatenate_apply_piece (t := S8x8x256x56x56) (2 : Fin 5) _ _ (ix5 g t c h w) 0 (by simp) S8x8x32x56x56 _ rfl rfl 0 rfl
      (ix5 g t (⟨c.val, hc⟩ : Fin 32) h w) (fun b => match b with
        | ⟨0, _⟩ => fun _ => rfl | ⟨1, _⟩ => fun _ => rfl
        | ⟨2, _⟩ => fun hb => absurd (Fin.ext rfl) hb
        | ⟨3, _⟩ => fun _ => rfl | ⟨4, _⟩ => fun _ => rfl)
      (by show 0 + c.val = c.val; omega)).trans ?_
    rw [back_at]
    by_cases h7 : t.val < 7
    · have hlt : (frame g t).val % 8 < 7 := by show (g.val * 8 + t.val) % 8 < 7; omega
      rw [dif_pos h7, dif_pos hlt]
      refine congrArg x0 (funext fun a => Fin.ext ?_)
      match a with
      | ⟨0, _⟩ => show g.val * 8 + (t.val + 1) = g.val * 8 + t.val + 1; omega
      | ⟨1, _⟩ => rfl
      | ⟨2, _⟩ => rfl
      | ⟨3, _⟩ => rfl
    · have hlt : ¬ (frame g t).val % 8 < 7 := by show ¬ (g.val * 8 + t.val) % 8 < 7; omega
      rw [dif_neg h7, dif_neg hlt]
  · rw [if_neg hc]
    by_cases hc' : c.val < 64
    · rw [if_pos hc']
      refine (concatenate_apply_piece (t := S8x8x256x56x56) (2 : Fin 5) _ _ (ix5 g t c h w) 1 (by simp) S8x8x32x56x56 _ rfl rfl 32 rfl
        (ix5 g t (⟨c.val - 32, by omega⟩ : Fin 32) h w) (fun b => match b with
          | ⟨0, _⟩ => fun _ => rfl | ⟨1, _⟩ => fun _ => rfl
          | ⟨2, _⟩ => fun hb => absurd (Fin.ext rfl) hb
          | ⟨3, _⟩ => fun _ => rfl | ⟨4, _⟩ => fun _ => rfl)
        (by show 32 + (c.val - 32) = c.val; omega)).trans ?_
      rw [fwd_at]
      by_cases h1 : 1 ≤ t.val
      · have hle : 1 ≤ (frame g t).val % 8 := by show 1 ≤ (g.val * 8 + t.val) % 8; omega
        rw [dif_pos h1, dif_pos hle]
        refine congrArg x0 (funext fun a => Fin.ext ?_)
        match a with
        | ⟨0, _⟩ => show g.val * 8 + (t.val - 1) = g.val * 8 + t.val - 1; omega
        | ⟨1, _⟩ => show 32 + (c.val - 32) = c.val; omega
        | ⟨2, _⟩ => rfl
        | ⟨3, _⟩ => rfl
      · have hle : ¬ 1 ≤ (frame g t).val % 8 := by show ¬ 1 ≤ (g.val * 8 + t.val) % 8; omega
        rw [dif_neg h1, dif_neg hle]
    · rw [if_neg hc']
      refine (concatenate_apply_piece (t := S8x8x256x56x56) (2 : Fin 5) _ _ (ix5 g t c h w) 2 (by simp) S8x8x192x56x56 _ rfl rfl 64 rfl
        (ix5 g t (⟨c.val - 64, by have := c.isLt; omega⟩ : Fin 192) h w) (fun b => match b with
          | ⟨0, _⟩ => fun _ => rfl | ⟨1, _⟩ => fun _ => rfl
          | ⟨2, _⟩ => fun hb => absurd (Fin.ext rfl) hb
          | ⟨3, _⟩ => fun _ => rfl | ⟨4, _⟩ => fun _ => rfl)
        (by show 64 + (c.val - 64) = c.val; omega)).trans ?_
      rw [band2_at]
      refine congrArg x0 (funext fun a => Fin.ext ?_)
      match a with
      | ⟨0, _⟩ => rfl
      | ⟨1, _⟩ => show 64 + (c.val - 64) = c.val; omega
      | ⟨2, _⟩ => rfl
      | ⟨3, _⟩ => rfl

/-- THE REFERENCE'S RESULT: the joined clips viewed as 64 frames again are the temporal shift of the argument. -/
theorem result_eq (x0 : (⟨S64x256x56x56, .f32⟩ : BufTy).Contents (Elt F)) :
    val_main_v10 (F := F) x0 = shift (FloatOps.ofBits .f32 0x00000000#32) x0 := by
  funext i
  obtain ⟨n, c, h, w, rfl⟩ : ∃ (n : Fin 64) (c : Fin 256) (h w : Fin 56), i = ix4 n c h w := ⟨i 0, i 1, i 2, i 3, eq_ix4 i⟩
  have hn := n.isLt; have hc := c.isLt; have hh := h.isLt; have hw := w.isLt
  have e : idx_main_v10 (ix4 n c h w) = ix5 (⟨n.val / 8, by omega⟩ : Fin 8) (⟨n.val % 8, by omega⟩ : Fin 8) c h w := by
    funext a; apply Fin.ext
    match a with
    | ⟨0, _⟩ => show (((n.val * 256 + c.val) * 56 + h.val) * 56 + w.val) / 6422528 = n.val / 8; omega
    | ⟨1, _⟩ => show (((n.val * 256 + c.val) * 56 + h.val) * 56 + w.val) / 802816 % 8 = n.val % 8; omega
    | ⟨2, _⟩ => show (((n.val * 256 + c.val) * 56 + h.val) * 56 + w.val) / 3136 % 256 = c.val; omega
    | ⟨3, _⟩ => show (((n.val * 256 + c.val) * 56 + h.val) * 56 + w.val) / 56 % 56 = h.val; omega
    | ⟨4, _⟩ => show (((n.val * 256 + c.val) * 56 + h.val) * 56 + w.val) % 56 = w.val; omega
  have en : frame (⟨n.val / 8, by omega⟩ : Fin 8) (⟨n.val % 8, by omega⟩ : Fin 8) = n :=
    Fin.ext (by show n.val / 8 * 8 + n.val % 8 = n.val; omega)
  rw [val_main_v10_apply, shift_ix4, e, joined_at, en]

end Cert.ReferenceIdeal.RefValue

end
-- ==== Proof.lean ====
/-
  Temporal shift: a kernel that moves channel bands one frame back or forward inside clips of 8 frames, against the
  jnp reference that does the same on the array viewed as clips.

  The input is f32[64, 256, 56, 56]: 64 frames (8 clips of 8), 256 channels, 56 x 56 pixels. Both programs compute
  `Cert.TemporalShift.shift` of it (Proof/ShiftSpec.lean): channels 0 to 31 read the next frame of the clip and zero
  at the clip's last frame, channels 32 to 63 read the previous frame and zero at the clip's first frame, channels
  64 to 255 are copied. Every result element is one input element or the zero constant; no arithmetic is done, so
  the two sides are equal for ANY input and the finiteness precondition is never opened.

    * the kernel: one grid point per clip and tile of 8 rows; the body's store is its block shifted by itself
      (Proof/BlockShift.lean), the blocks tile the array (Proof/KernelShift.lean);
    * the reference: reshape to clips, three channel slices, a slice and a zero pad joined along the positions for each
      of the two moved bands, the bands joined along the channels, reshape back (Proof/RefShift.lean);
    * the fill values are one constant: the zero word read at the same instance on both sides.

  The three frames are the generated ones (the reference's is its run with the result dropped); the idealization
  rewrote nothing, so `preserves` is `True`.
-/
import proofs.«172650_j50242527428854_1_alg».proof.Defs
import proofs.«172650_j50242527428854_1_alg».proof.Proof.Gen.Kernel
import proofs.«172650_j50242527428854_1_alg».proof.Proof.Gen.Kernel.Skeleton
import proofs.«172650_j50242527428854_1_alg».proof.Proof.Gen.Kernel.Launch
import proofs.«172650_j50242527428854_1_alg».proof.Proof.Gen.Kernel.Points
import proofs.«172650_j50242527428854_1_alg».proof.Proof.Gen.Kernel.Frame
import proofs.«172650_j50242527428854_1_alg».proof.Proof.Gen.KernelIdeal
import proofs.«172650_j50242527428854_1_alg».proof.Proof.Gen.KernelIdeal.Skeleton
import proofs.«172650_j50242527428854_1_alg».proof.Proof.Gen.KernelIdeal.Launch
import proofs.«172650_j50242527428854_1_alg».proof.Proof.Gen.KernelIdeal.Points
import proofs.«172650_j50242527428854_1_alg».proof.Proof.Gen.KernelIdeal.Frame
import proofs.«172650_j50242527428854_1_alg».proof.Proof.Gen.ReferenceIdeal
import proofs.«172650_j50242527428854_1_alg».proof.Proof.Gen.Pre_finite_inputs
import proofs.«172650_j50242527428854_1_alg».proof.Proof.Gen.KernelIdeal.Value
import proofs.«172650_j50242527428854_1_alg».proof.Proof.Gen.ReferenceIdeal.Run
import proofs.«172650_j50242527428854_1_alg».proof.Proof.Gen.ReferenceIdeal.Read
import proofs.«172650_j50242527428854_1_alg».proof.Proof.KernelShift
import proofs.«172650_j50242527428854_1_alg».proof.Proof.RefShift
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- Both results are the temporal shift of the (agreeing) argument arrays, filled with the zero constant. -/
theorem algebraic : Cert.algebraic_KernelIdeal_ReferenceIdeal := by
  intro m ρ m' ρ' _ hagree
  refine ⟨_, Cert.KernelIdeal.ShiftValue.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v10_eq _).trans ?_
  rw [Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
